-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x256 .f32) (main_arg3 : FVec F S256 .f32) (main_arg4 : FVec F S256x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S2000x64 : Shape := ⟨2, ![2000, 64]⟩
abbrev S2000x256 : Shape := ⟨2, ![2000, 256]⟩
abbrev S1x256 : Shape := ⟨2, ![1, 256]⟩
abbrev S1x64 : Shape := ⟨2, ![1, 64]⟩

abbrev nBuf : Space → Nat
  | .hbm => 24
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S256, .f32⟩
  | .local _ .vmem, ⟨6, _⟩ => ⟨S256x64, .f32⟩
  | .local _ .vmem, ⟨7, _⟩ => ⟨S64, .f32⟩
  | .local _ .vmem, ⟨8, _⟩ => ⟨S2000x64, .f32⟩
  | .local _ .vmem, ⟨9, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x256 : Shape := ⟨2, ![50000, 256]⟩
abbrev S1x256 : Shape := ⟨2, ![1, 256]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S_, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .f32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x256_S50000x256_1_0_0_1_n_n_wf : DotDims.WF S50000x64 S64x256 S50000x256 [1] [0] [0] [1] [] []
  dot_S50000x256_S256x64_S50000x64_1_0_0_1_n_n_wf : DotDims.WF S50000x256 S256x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.RowMlp.lean ====
/-
  The function of ONE node that both programs compute, over the extended reals.

  A node's input row is combined with the sum of its neighbours' rows, `h = 1·x + agg` (the factor is the
  f32 word of 1.0, carried as a word: both programs hold the same one, so it is never evaluated), then
  passed through two affine layers with a rectifier between them:
    hidden k = max (∑ j, h j · W1 (j, k) + b1 k) 0        (256 hidden units, 64 inputs)
    out q    = ∑ k, hidden k · W2 (k, q) + b2 q           (64 outputs)
  `nodeOut` lays the rows out as one [50000, 64] array: entry (r, q) depends on row r of `x` and of `agg`
  only, and on all of the weights.
-/
import Idealize.ShloMosaic.PureOps.Ideal
import Idealize.ShloMosaic.Lib.ValueIdx

noncomputable section

namespace Cert.NodeMlp

open Idealize.ShloMosaic Idealize.ShloMosaic.ValueIdx

/-- Entry `j` of a node's combined input: the node's own feature, times the word of 1.0, plus the aggregated
    neighbour feature. -/
def combined (xr aggr : Fin 64 → EReal) (j : Fin 64) : EReal :=
  Ideal.ofBits .f32 0x3F800000#32 * xr j + aggr j

/-- Hidden unit `k` of a node: the first affine layer, rectified at the word of 0.0. -/
def hidden (xr aggr : Fin 64 → EReal) (W1 : (⟨2, ![64, 256]⟩ : Shape).Idx → EReal)
    (b1 : (⟨1, ![256]⟩ : Shape).Idx → EReal) (k : Fin 256) : EReal :=
  max ((∑ j : Fin 64, combined xr aggr j * W1 (ix2 j k)) + b1 (ix1 k)) (Ideal.ofBits .f32 0x00000000#32)

/-- Output `q` of a node: the second affine layer over the 256 hidden units. -/
def row (xr aggr : Fin 64 → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (q : Fin 64) : EReal :=
  (∑ k : Fin 256, hidden xr aggr W1 b1 k * W2 (ix2 k q)) + b2 (ix1 q)

/-- All 50000 nodes: entry `(r, q)` is output `q` of the node whose rows are row `r` of `x` and of `agg`. -/
def nodeOut (x agg : (⟨2, ![50000, 64]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![50000, 64]⟩ : Shape).Idx → EReal :=
  fun i => row (fun j => x (ix2 (i 0) j)) (fun j => agg (ix2 (i 0) j)) W1 b1 W2 b2 (i 1)

/-- Entry `(r, q)` of `nodeOut` is output `q` of node `r`. -/
theorem nodeOut_apply (x agg : (⟨2, ![50000, 64]⟩ : Shape).Idx → EReal) (W1 : (⟨2, ![64, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (r : Fin 50000) (q : Fin 64) :
    nodeOut x agg W1 b1 W2 b2 (ix2 r q) = row (fun j => x (ix2 r j)) (fun j => agg (ix2 r j)) W1 b1 W2 b2 q := rfl

end Cert.NodeMlp

end
-- ==== Proof.Payload.lean ====
/-
  The kernel body's one stored value, read at an entry of its [2000, 64] block.

  The body multiplies the block of `x` by a splat of 1.0, adds the block of `agg`, and runs the two layers on the
  matrix unit with a zero accumulator. At the ideal values a change of float format is the identity and a matrix
  product into zero is the plain sum over the contracted axis, so entry `(p, q)` of the stored value is
  `NodeMlp.row` of row `p` of the two blocks: no other row of the block enters it.
-/
import proofs.«181144_j38216619000492_1_alg».proof.Proof.Gen.KernelIdeal.Skeleton
import proofs.«181144_j38216619000492_1_alg».proof.Proof.RowMlp
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The first product: [2000, 64] × [64, 256], contracted over the 64 -/

theorem lhs1_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem lhs1_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rhs1_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rhs1_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- Entry `(p, k)` of the first product is the sum over the 64 inputs of row `p` of the left factor against
    column `k` of the right. -/
theorem product1_apply (a : FVec Ideal S2000x64 .bf16) (w : FVec Ideal S64x256 .bf16) (p : Fin 2000) (k : Fin 256) :
    matmul dot_S2000x64_S64x256_S2000x256_1_0_0_1_n_n none a w (constant S2000x256 .f32 0x00000000#32) (ix2 p k)
      = ∑ j : Fin 64, a (ix2 p j) * w (ix2 j k) := by
  simp only [matmul]
  rw [Ideal.matmul_constant_zero_apply, ← Equiv.sum_comp (ValueIdx.contrEquiv1 dot_S2000x64_S64x256_S2000x256_1_0_0_1_n_n 64 rfl rfl).symm]
  refine Finset.sum_congr rfl fun j _ => ?_
  have hj := ValueIdx.contrEquiv1_symm_val dot_S2000x64_S64x256_S2000x256_1_0_0_1_n_n 64 rfl rfl j
  have el : dot_S2000x64_S64x256_S2000x256_1_0_0_1_n_n.lhsIdx (ix2 p k) ((ValueIdx.contrEquiv1 dot_S2000x64_S64x256_S2000x256_1_0_0_1_n_n 64 rfl rfl).symm j) = ix2 p j := funext fun ax => Fin.ext (by
    match ax with
    | ⟨0, _⟩ => exact lhs1_0 _ _
    | ⟨1, _⟩ => exact (lhs1_1 _ _).trans hj)
  have er : dot_S2000x64_S64x256_S2000x256_1_0_0_1_n_n.rhsIdx (ix2 p k) ((ValueIdx.contrEquiv1 dot_S2000x64_S64x256_S2000x256_1_0_0_1_n_n 64 rfl rfl).symm j) = ix2 j k := funext fun ax => Fin.ext (by
    match ax with
    | ⟨0, _⟩ => exact (rhs1_0 _ _).trans hj
    | ⟨1, _⟩ => exact rhs1_1 _ _)
  rw [el, er]

/-! ## The second product: [2000, 256] × [256, 64], contracted over the 256 -/

theorem lhs2_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs2_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs2_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs2_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Entry `(p, q)` of the second product is the sum over the 256 hidden units of row `p` of the left factor
    against column `q` of the right. -/
theorem product2_apply (a : FVec Ideal S2000x256 .bf16) (w : FVec Ideal S256x64 .bf16) (p : Fin 2000) (q : Fin 64) :
    matmul dot_S2000x256_S256x64_S2000x64_1_0_0_1_n_n none a w (constant S2000x64 .f32 0x00000000#32) (ix2 p q)
      = ∑ k : Fin 256, a (ix2 p k) * w (ix2 k q) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun ax => Fin.ext (by
    match ax with
    | ⟨0, _⟩ => exact lhs2_0 _ _
    | ⟨1, _⟩ => exact (lhs2_1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun ax => Fin.ext (by
    match ax with
    | ⟨0, _⟩ => exact (rhs2_0 _ _).trans hk
    | ⟨1, _⟩ => exact rhs2_1 _ _)
  rw [el, er]

/-! ## A bias vector laid over every row -/

/-- A length-`b` vector viewed as one row and repeated down `a` rows reads, at `(p, c)`, the vector at `c`. -/
theorem bias_apply {a b : ℕ} (v : (⟨1, ![b]⟩ : Shape).Idx → EReal)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ v h) h' (ix2 p c) = v (ix1 c) :=
  (broadcastTo_1b_ab_apply _ h' p c).trans (shapeCast_a_1a_apply v h 0 c)

/-! ## The stored value at an entry -/

/-- Entry `(p, q)` of the value the body stores is the node function of row `p` of the `x` block and of the
    `agg` block, with the whole weight and bias blocks. -/
theorem stored_apply (v0 v3 : FVec Ideal S2000x64 .f32) (v7 : FVec Ideal S64x256 .f32) (v10 : FVec Ideal S256 .f32)
    (v17 : FVec Ideal S256x64 .f32) (v20 : FVec Ideal S64 .f32) (p : Fin 2000) (q : Fin 64) :
    k0_pay1 (F := Ideal) v0 v3 v7 v10 v17 v20 (ix2 p q)
      = Cert.NodeMlp.row (fun j => v0 (ix2 p j)) (fun j => v3 (ix2 p j)) v7 v10 v17 v20 q := by
  unfold k0_pay1
  refine (congrArg₂ (· + ·) (product2_apply _ _ p q) (bias_apply v20 _ _ p q)).trans ?_
  unfold Cert.NodeMlp.row
  refine congrArg (· + v20 (ix1 q)) (Finset.sum_congr rfl fun k _ => ?_)
  refine congrArg (· * v17 (ix2 k q)) ?_
  unfold Cert.NodeMlp.hidden
  refine congrArg (max · (Ideal.ofBits .f32 0x00000000#32)) ?_
  refine (congrArg₂ (· + ·) (product1_apply _ _ p k) (bias_apply v10 _ _ p k)).trans ?_
  refine congrArg (· + v10 (ix1 k)) (Finset.sum_congr rfl fun j _ => ?_)
  refine congrArg (· * v7 (ix2 j k)) ?_
  unfold Cert.NodeMlp.combined
  exact congrArg (Ideal.ofBits .f32 0x3F800000#32 * v0 (ix2 p j) + ·) (congrFun (shapeCast_self v3 _) (ix2 p j))

end Cert.KernelIdeal.Payload

end
-- ==== Proof.KernelValue.lean ====
/-
  What the kernel's result array holds after the run, as ONE function of the argument arrays.

  Before the region the program gathers the source rows of `x` along the edges and adds each into its
  destination row: the neighbour sums `agg`, kept here as one unopened function of `x` and the edge list. The
  region then walks 25 grid points; point `t` reads rows 2000·t … 2000·t + 1999 of `x` and of `agg`, all of the
  weights and biases, and writes the same rows of the result. Entry `(p, q)` of what it writes is the node function
  of row `p` of its two blocks (Payload.lean), that is of row 2000·t + p of the arrays: block `t` of `nodeOut`.
  The 25 blocks tile the 50000 rows, so the array ends holding `nodeOut` everywhere.
-/
import proofs.«181144_j38216619000492_1_alg».proof.Proof.Gen.KernelIdeal.Value
import proofs.«181144_j38216619000492_1_alg».proof.Proof.Payload
import Idealize.ShloMosaic.Lib.Pipeline.Value
import Idealize.ShloMosaic.Lib.StableHlo.Run

noncomputable section

namespace Cert.KernelIdeal.NodeValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

/-! ## The neighbour sums -/

section
variable {F : FTy → Type} [FloatOps F]

/-- Row `r` of the result is the sum, over the edges whose destination is `r`, of the source's row of `x` (a
    negative source counted from the end): the host's gather followed by its scatter-add into zeros. -/
def neighbourSum (x0 : (⟨S50000x64, .f32⟩ : BufTy).Contents (Elt F)) (x1 : (⟨S2x800000, .i32⟩ : BufTy).Contents (Elt F)) :
    (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (Host.gather gather_S50000x64_S800000x1_S800000x64_1_0_n_n_0_1_164 x0 (broadcastInDim S800000x1 ![0] bcast_S800000_S800000x1_0 (select (cmpi .slt (shapeCast _ (extractStridedSlice S1x800000 ![0, 0] x1 slices_S2x800000_S1x800000_0_0) shapeCasts_S1x800000_S800000) (broadcastInDim S800000 ![] bcast_S_S800000 (constantI S_ 32 0#32))) (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000))))

end

variable (m : (ℓ : Loc nD τ sig) → Buf (Elt Ideal) ℓ) (ρ : Dev nD → PrngReg)

/-- The array the region finds in its second window is the neighbour sums of the launch contents. -/
theorem V_agg (c : Dev nD) :
    (V m c main_v13 : S50000x64.Idx → EReal)
      = neighbourSum (F := Ideal) (m ((c : Thread nD τ).loc main_arg0)) (m ((c : Thread nD τ).loc main_arg1)) := by
  dsimp only [Gen.V, Gen.hostOps0]
  after_results
  rfl

/-! ## The windows' blocks as rows of their arrays -/

theorem hz2 : (![0, 0] : Fin 2 → Nat) = fun _ => 0 := funext fun a => by fin_cases a <;> rfl
theorem hz1 : (![0] : Fin 1 → Nat) = fun _ => 0 := funext fun a => by fin_cases a <;> rfl

/-- The block indices at point `t`: the two row windows and the output move together down the rows, block `t` at
    point `t`; every other block index is zero. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- The first weight matrix's block is the whole matrix, at every point. -/
theorem w1_block (W : S64x256.Idx → EReal) (t : Fin cfg0.N) :
    ((cfg0.win 2).blk t).view.read (Elt Ideal) W = W := by
  obtain ⟨_, _, _, _, _, _, e0, e1, _⟩ := idx_facts t
  funext y
  show W (((cfg0.win 2).blk t).view.emb y) = W y
  refine congrArg W (funext fun a => Fin.ext ?_)
  match a with
  | ⟨0, _⟩ => show win0_2.index t (0 : Fin 2) * 64 + 1 * (y 0).val = (y 0).val; omega
  | ⟨1, _⟩ => show win0_2.index t (1 : Fin 2) * 256 + 1 * (y 1).val = (y 1).val; omega

/-- The first bias's block is the whole vector, at every point. -/
theorem b1_block (b : S256.Idx → EReal) (t : Fin cfg0.N) :
    ((cfg0.win 3).blk t).view.read (Elt Ideal) b = b := by
  obtain ⟨_, _, _, _, _, _, _, _, e0, _⟩ := idx_facts t
  funext y
  show b (((cfg0.win 3).blk t).view.emb y) = b y
  refine congrArg b (funext fun a => Fin.ext ?_)
  match a with
  | ⟨0, _⟩ => show win0_3.index t (0 : Fin 1) * 256 + 1 * (y 0).val = (y 0).val; omega

/-- The second weight matrix's block is the whole matrix, at every point. -/
theorem w2_block (W : S256x64.Idx → EReal) (t : Fin cfg0.N) :
    ((cfg0.win 4).blk t).view.read (Elt Ideal) W = W := by
  obtain ⟨_, _, _, _, _, _, _, _, _, e0, e1, _⟩ := idx_facts t
  funext y
  show W (((cfg0.win 4).blk t).view.emb y) = W y
  refine congrArg W (funext fun a => Fin.ext ?_)
  match a with
  | ⟨0, _⟩ => show win0_4.index t (0 : Fin 2) * 256 + 1 * (y 0).val = (y 0).val; omega
  | ⟨1, _⟩ => show win0_4.index t (1 : Fin 2) * 64 + 1 * (y 1).val = (y 1).val; omega

/-- The second bias's block is the whole vector, at every point. -/
theorem b2_block (b : S64.Idx → EReal) (t : Fin cfg0.N) :
    ((cfg0.win 5).blk t).view.read (Elt Ideal) b = b := by
  obtain ⟨_, _, _, _, _, _, _, _, _, _, _, e0⟩ := idx_facts t
  funext y
  show b (((cfg0.win 5).blk t).view.emb y) = b y
  refine congrArg b (funext fun a => Fin.ext ?_)
  match a with
  | ⟨0, _⟩ => show win0_5.index t (0 : Fin 1) * 64 + 1 * (y 0).val = (y 0).val; omega

/-- Row `p` of the first window's block at point `t` is row 2000·t + p of its array. -/
theorem x_block_apply (X : S50000x64.Idx → EReal) (t : Fin cfg0.N) (p : Fin 2000) (j : Fin 64) (r : Fin 50000)
    (hr : r.val = t.val * 2000 + p.val) :
    ((cfg0.win 0).blk t).view.read (Elt Ideal) X (ix2 p j) = X (ix2 r j) := by
  obtain ⟨_, _, e0, e1, _⟩ := idx_facts t
  show X (((cfg0.win 0).blk t).view.emb (ix2 p j)) = X (ix2 r j)
  refine congrArg X (funext fun a => Fin.ext ?_)
  match a with
  | ⟨0, _⟩ => show win0_0.index t (0 : Fin 2) * 2000 + 1 * p.val = r.val; omega
  | ⟨1, _⟩ => show win0_0.index t (1 : Fin 2) * 64 + 1 * j.val = j.val; omega

/-- Row `p` of the second window's block at point `t` is row 2000·t + p of its array. -/
theorem agg_block_apply (A : S50000x64.Idx → EReal) (t : Fin cfg0.N) (p : Fin 2000) (j : Fin 64) (r : Fin 50000)
    (hr : r.val = t.val * 2000 + p.val) :
    ((cfg0.win 1).blk t).view.read (Elt Ideal) A (ix2 p j) = A (ix2 r j) := by
  obtain ⟨_, _, _, _, e0, e1, _⟩ := idx_facts t
  show A (((cfg0.win 1).blk t).view.emb (ix2 p j)) = A (ix2 r j)
  refine congrArg A (funext fun a => Fin.ext ?_)
  match a with
  | ⟨0, _⟩ => show win0_1.index t (0 : Fin 2) * 2000 + 1 * p.val = r.val; omega
  | ⟨1, _⟩ => show win0_1.index t (1 : Fin 2) * 64 + 1 * j.val = j.val; omega

/-- Entry `(p, q)` of the output block at point `t` sits at `(2000·t + p, q)` of the result array. -/
theorem out_block_emb (t : Fin cfg0.N) (p : Fin 2000) (q : Fin 64) (r : Fin 50000)
    (hr : r.val = t.val * 2000 + p.val) :
    (((cfg0.win 6).blk t).view.emb (ix2 p q) : S50000x64.Idx) = ix2 r q := by
  obtain ⟨e0, e1, _⟩ := idx_facts t
  refine funext fun a => Fin.ext ?_
  match a with
  | ⟨0, _⟩ => show win0_6.index t (0 : Fin 2) * 2000 + 1 * p.val = r.val; omega
  | ⟨1, _⟩ => show win0_6.index t (1 : Fin 2) * 64 + 1 * q.val = q.val; omega

/-- The body's stored value on the blocks of ANY six arrays, at entry `(p, q)` of point `t`'s block, is the node
    function of those arrays at the entry's place in the result array: the row windows read row 2000·t + p, the
    weights and biases are whole. -/
theorem block_value (X A : S50000x64.Idx → EReal) (W1 : S64x256.Idx → EReal) (b1 : S256.Idx → EReal)
    (W2 : S256x64.Idx → EReal) (b2 : S64.Idx → EReal) (t : Fin cfg0.N) (p : Fin 2000) (q : Fin 64) :
    k0_pay1 (F := Ideal) (((cfg0.win 0).blk t).view.read (Elt Ideal) X) (((cfg0.win 1).blk t).view.read (Elt Ideal) A)
        (((cfg0.win 2).blk t).view.read (Elt Ideal) W1) (((cfg0.win 3).blk t).view.read (Elt Ideal) b1)
        (((cfg0.win 4).blk t).view.read (Elt Ideal) W2) (((cfg0.win 5).blk t).view.read (Elt Ideal) b2) (ix2 p q)
      = Cert.NodeMlp.nodeOut X A W1 b1 W2 b2 (((cfg0.win 6).blk t).view.emb (ix2 p q)) := by
  have ht : t.val < 25 := Nat.lt_of_lt_of_eq t.isLt (show cfg0.N = 25 from N_0)
  obtain ⟨r, hr⟩ : ∃ r : Fin 50000, r.val = t.val * 2000 + p.val := ⟨⟨t.val * 2000 + p.val, by omega⟩, rfl⟩
  rw [w1_block, b1_block, w2_block, b2_block, out_block_emb t p q r hr, Payload.stored_apply, Cert.NodeMlp.nodeOut_apply]
  simp only [fun j => x_block_apply X t p j r hr, fun j => agg_block_apply A t p j r hr]

/-! ## What each point writes back, the cover, and the run -/

/-- The node function of the six arrays the region finds in its input windows. -/
def result (c : Dev nD) : S50000x64.Idx → EReal :=
  Cert.NodeMlp.nodeOut (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- Point `t` writes back block `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz2]
  simp only [View.ld_unit_zero (S := S2000x64) hz2, View.ld_unit_zero (S := S64x256) hz2, View.ld_unit_zero (S := S256) hz1,
    View.ld_unit_zero (S := S256x64) hz2, View.ld_unit_zero (S := S64) hz1]
  unfold iblk result
  generalize V m c (Pipeline.arrRef spec0 0) = X
  generalize V m c (Pipeline.arrRef spec0 1) = A
  generalize V m c (Pipeline.arrRef spec0 2) = W1
  generalize V m c (Pipeline.arrRef spec0 3) = b1
  generalize V m c (Pipeline.arrRef spec0 4) = W2
  generalize V m c (Pipeline.arrRef spec0 5) = b2
  funext y
  obtain ⟨p, q, rfl⟩ : ∃ (p : Fin 2000) (q : Fin 64), y = ix2 p q := ⟨y 0, y 1, eq_ix2 y⟩
  exact block_value X A W1 b1 W2 b2 t p q

/-- An index of the array is in point `t`'s block iff each coordinate is in the block's range on its axis. -/
theorem mem_block (t : Fin cfg0.N) (i : S50000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v14).slice (win0_6.rect t)).set ↔ _
  rw [View.set_slice_whole, Rect.mem_set_unit]
  exact Iff.rfl

/-- Row `r` lies in the block of point `r / 2000`: the 25 blocks tile the 50000 rows. -/
theorem covered (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 25 := N_0
  obtain ⟨t, ht⟩ : ∃ t : Fin cfg0.N, t.val = (i 0).val / 2000 := ⟨⟨(i 0).val / 2000, by rw [hN]; omega⟩, rfl⟩
  refine ⟨t, flush0_6 t, ?_⟩
  rw [mem_block]
  obtain ⟨e0, e1, _⟩ := idx_facts t
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- The result array after the run is the node function of the arrays the region found. -/
theorem final (c : Dev nD) : (dats m 0 c).arrAt 6 cfg0.N = result m c :=
  (dats m 0 c).arrAt_eq_of_cover 6 (result m c) (fun t _ => flushed_eq m c t) covered

/-- The node function of the launch contents: `x`, its neighbour sums, the weights and the biases. -/
def value (c : Dev nD) : S50000x64.Idx → EReal :=
  Cert.NodeMlp.nodeOut (m ((c : Thread nD τ).loc main_arg0))
    (neighbourSum (F := Ideal) (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5))

/-- The arrays the region finds are the launch contents, the second window's their neighbour sums. -/
theorem result_eq (c : Dev nD) : result m c = value m c := by
  unfold result value
  rw [show V m c (Pipeline.arrRef spec0 0) = m ((c : Thread nD τ).loc main_arg0) from V_main_arg0 m c,
    show V m c (Pipeline.arrRef spec0 1) = neighbourSum (F := Ideal) (m ((c : Thread nD τ).loc main_arg0)) (m ((c : Thread nD τ).loc main_arg1)) from V_agg m c,
    show V m c (Pipeline.arrRef spec0 2) = m ((c : Thread nD τ).loc main_arg2) from V_main_arg2 m c,
    show V m c (Pipeline.arrRef spec0 3) = m ((c : Thread nD τ).loc main_arg3) from V_main_arg3 m c,
    show V m c (Pipeline.arrRef spec0 4) = m ((c : Thread nD τ).loc main_arg4) from V_main_arg4 m c,
    show V m c (Pipeline.arrRef spec0 5) = m ((c : Thread nD τ).loc main_arg5) from V_main_arg5 m c]

/-- Every run ends with the result array at `value` and the arguments as launched. -/
theorem run : θ_run defs (onTc (τ := τ) (main (F := Ideal))) ⟨m, fun _ => 0, ρ⟩ fun r => ∀ c : Dev nD,
      r.2.mem ((c : Thread nD τ).loc main_v14) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (result_eq m c), (h c).2⟩)
    (Value.run_blocks m ρ)

end Cert.KernelIdeal.NodeValue

end
-- ==== Proof.RefValue.lean ====
/-
  The reference's result as the node function.

  The reference forms `1·x + agg` on the whole [50000, 64] array, multiplies by the first weight matrix, adds the
  first bias along every row, rectifies, multiplies by the second weight matrix and adds the second bias. Read at
  entry `(r, q)`, each matrix product is the sum over its contracted axis and each bias is read at its column, so the
  entry is the node function of row `r` of `x` and of `agg`, where `agg` is the stage the scatter-add writes — kept
  whole: its entries are never opened.
-/
import proofs.«181144_j38216619000492_1_alg».proof.Proof.Gen.ReferenceIdeal.Read
import proofs.«181144_j38216619000492_1_alg».proof.Proof.RowMlp
import Idealize.ShloMosaic.Lib.ValueIdx

noncomputable section

namespace Cert.ReferenceIdeal.NodeValue

open Cert.ReferenceIdeal Cert.ReferenceIdeal.Gen Cert.ReferenceIdeal.Read Idealize.ShloMosaic Idealize.ShloMosaic.ValueIdx

/-- Hidden unit `k` of node `r`, as the reference computes it on whole arrays. -/
theorem hidden_eq (x0 : (⟨S50000x64, .f32⟩ : BufTy).Contents (Elt Ideal)) (x1 : (⟨S2x800000, .i32⟩ : BufTy).Contents (Elt Ideal))
    (x2 : (⟨S64x256, .f32⟩ : BufTy).Contents (Elt Ideal)) (x3 : (⟨S256, .f32⟩ : BufTy).Contents (Elt Ideal))
    (r : Fin 50000) (k : Fin 256) :
    val_main_v22 (F := Ideal) x0 x1 x2 x3 (ix2 r k)
      = Cert.NodeMlp.hidden (fun j => x0 (ix2 r j)) (fun j => val_main_v13 (F := Ideal) x0 x1 (ix2 r j)) x2 x3 k := by
  have el : ∀ j : Fin 64, lidx_main_v17 (ix2 r k) j = ix2 r j := fun j =>
    funext fun a => Fin.ext (by match a with | ⟨0, _⟩ => rfl | ⟨1, _⟩ => rfl)
  have er : ∀ j : Fin 64, ridx_main_v17 (ix2 r k) j = ix2 j k := fun j =>
    funext fun a => Fin.ext (by match a with | ⟨0, _⟩ => rfl | ⟨1, _⟩ => rfl)
  have eb : idx_main_v18 (idx_main_v19 (ix2 r k)) = ix1 k :=
    funext fun a => Fin.ext (by match a with | ⟨0, _⟩ => rfl)
  rw [val_main_v22_apply, val_main_v20_apply, val_main_v17_apply, val_main_v19_apply, val_main_v18_apply, val_main_v21_apply,
    val_main_cst_2_apply, eb]
  simp only [el, er, val_main_v16_apply, val_main_v15_apply, val_main_v14_apply, val_main_cst_1_apply]
  rfl

/-- The reference's last stage is the node function of `x`, the scatter-add's stage, the weights and the biases. -/
theorem stage_eq (x0 : (⟨S50000x64, .f32⟩ : BufTy).Contents (Elt Ideal)) (x1 : (⟨S2x800000, .i32⟩ : BufTy).Contents (Elt Ideal))
    (x2 : (⟨S64x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v26 (F := Ideal) x0 x1 x2 x3 x4 x5
      = Cert.NodeMlp.nodeOut x0 (val_main_v13 (F := Ideal) x0 x1) x2 x3 x4 x5 := by
  funext i
  obtain ⟨r, q, rfl⟩ : ∃ (r : Fin 50000) (q : Fin 64), i = ix2 r q := ⟨i 0, i 1, eq_ix2 i⟩
  have el : ∀ k : Fin 256, lidx_main_v23 (ix2 r q) k = ix2 r k := fun k =>
    funext fun a => Fin.ext (by match a with | ⟨0, _⟩ => rfl | ⟨1, _⟩ => rfl)
  have er : ∀ k : Fin 256, ridx_main_v23 (ix2 r q) k = ix2 k q := fun k =>
    funext fun a => Fin.ext (by match a with | ⟨0, _⟩ => rfl | ⟨1, _⟩ => rfl)
  have eb : idx_main_v24 (idx_main_v25 (ix2 r q)) = ix1 q :=
    funext fun a => Fin.ext (by match a with | ⟨0, _⟩ => rfl)
  rw [val_main_v26_apply, val_main_v23_apply, val_main_v25_apply, val_main_v24_apply, eb]
  simp only [el, er, hidden_eq]
  rfl

end Cert.ReferenceIdeal.NodeValue

end
-- ==== Proof.lean ====
/-
  One layer of a graph network over 50000 nodes with 64 features each and 800000 directed edges.

  Every node adds to its own feature row the sum of the rows of the nodes that point at it (the neighbour sums: a
  gather of source rows along the edges, added into destination rows), and passes the combined row through two affine
  layers with a rectifier between them, 64 → 256 → 64. Both programs form the neighbour sums by the same host
  operations. The kernel then treats the nodes 2000 rows at a time, each block through the matrix unit with a zero
  accumulator and its operands narrowed to bf16; the reference multiplies the whole [50000, 64] array at once.
  Over the extended reals a change of float format is the identity and a matrix product is the plain sum over the
  contracted axis, and a node's output depends on no other node's row once the neighbour sums are given: so both
  programs end with the same array, `NodeMlp.nodeOut` of `x`, its neighbour sums, the weights and the biases.
  No law of arithmetic beyond this reading is used: the two sides are the same sums of the same products in the
  same order, so the finiteness of the inputs is never opened.

  The kernel's side is Proof/KernelValue.lean (each block written back is the block of `nodeOut`; the blocks tile
  the rows), over Proof/Payload.lean (the stored value at an entry); the reference's side is Proof/RefValue.lean.
  The three frames are the generated ones, and the idealization rewrote no operation.
-/
import proofs.«181144_j38216619000492_1_alg».proof.Defs
import proofs.«181144_j38216619000492_1_alg».proof.Proof.Gen.Kernel
import proofs.«181144_j38216619000492_1_alg».proof.Proof.Gen.Kernel.Skeleton
import proofs.«181144_j38216619000492_1_alg».proof.Proof.Gen.Kernel.Launch
import proofs.«181144_j38216619000492_1_alg».proof.Proof.Gen.Kernel.Points
import proofs.«181144_j38216619000492_1_alg».proof.Proof.Gen.Kernel.Frame
import proofs.«181144_j38216619000492_1_alg».proof.Proof.Gen.KernelIdeal
import proofs.«181144_j38216619000492_1_alg».proof.Proof.Gen.KernelIdeal.Skeleton
import proofs.«181144_j38216619000492_1_alg».proof.Proof.Gen.KernelIdeal.Launch
import proofs.«181144_j38216619000492_1_alg».proof.Proof.Gen.KernelIdeal.Points
import proofs.«181144_j38216619000492_1_alg».proof.Proof.Gen.KernelIdeal.Frame
import proofs.«181144_j38216619000492_1_alg».proof.Proof.Gen.ReferenceIdeal
import proofs.«181144_j38216619000492_1_alg».proof.Proof.Gen.Pre_finite_inputs
import proofs.«181144_j38216619000492_1_alg».proof.Proof.Gen.KernelIdeal.Value
import proofs.«181144_j38216619000492_1_alg».proof.Proof.Gen.ReferenceIdeal.Run
import proofs.«181144_j38216619000492_1_alg».proof.Proof.Gen.ReferenceIdeal.Read
import proofs.«181144_j38216619000492_1_alg».proof.Proof.KernelValue
import proofs.«181144_j38216619000492_1_alg».proof.Proof.RefValue
import Idealize.ShloMosaic.Adequacy
import Idealize.ShloMosaic.Init

noncomputable section

namespace Cert.Proof

open Idealize.ShloMosaic Idealize.SL.Sem

/-- The kernel's program runs, faults nowhere and leaves its arguments as launched. -/
theorem frame_kernel : Cert.frame_Kernel := fun m ρ _ => Cert.Kernel.Gen.frame m ρ

/-- The same of its reading over the extended reals. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The stage the reference's scatter-add writes is the kernel program's neighbour sums: the same gather and
    scatter-add of the same operands, operation by operation. -/
theorem neighbourSum_eq (x0 : (⟨Cert.ReferenceIdeal.S50000x64, .f32⟩ : BufTy).Contents (Elt Ideal))
    (x1 : (⟨Cert.ReferenceIdeal.S2x800000, .i32⟩ : BufTy).Contents (Elt Ideal)) :
    Cert.ReferenceIdeal.Read.val_main_v13 (F := Ideal) x0 x1 = Cert.KernelIdeal.NodeValue.neighbourSum (F := Ideal) x0 x1 := rfl

/-- From memories that agree on the six arguments, the kernel's result array and the reference's both end at the
    node function of `x`, its neighbour sums, the weights and the biases. -/
theorem algebraic : Cert.algebraic_KernelIdeal_ReferenceIdeal := by
  intro m ρ m' ρ' _ hagree
  refine ⟨fun c => Cert.KernelIdeal.NodeValue.value m c, Cert.KernelIdeal.NodeValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v26_eq, Cert.ReferenceIdeal.NodeValue.stage_eq, neighbourSum_eq, h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
